-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S200x10000 : Shape := ⟨2, ![200, 10000]⟩
abbrev S400x16 : Shape := ⟨2, ![400, 16]⟩
abbrev S200x16 : Shape := ⟨2, ![200, 16]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x10000_S200x10000_0_0 : ∀ a, (![0, 0] : Fin 2 → Nat) a + S200x10000.size a ≤ S200x10000.size a
  h_S200x10000 : 0 < S200x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S400x16_S200x16_0_0 : ∀ a, (![0, 0] : Fin 2 → Nat) a + S200x16.size a ≤ S400x16.size a
  h_S200x16 : 0 < S200x16.numel
  inb_S400x16_S200x16_200_0 : ∀ a, (![200, 0] : Fin 2 → Nat) a + S200x16.size a ≤ S400x16.size a
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KBase.lean ====
/-
  What the runs of the graph-convolution kernel's body and its frame share.

  The program's @main reshapes the bias vector to a row and then enters one kernel region on a grid of
  25 points.  Six windows: the feature matrix, the weight matrix and the bias row, each one block that
  never moves; two windows on the SAME adjacency matrix, the even and the odd slab of 200 rows of the
  point's 400; and the output, 400 rows per point.  The kernel keeps the product features × weights in
  a scratch buffer: it computes it at the first point (the one branch of the body, taken exactly
  there) and reads it at every point.

  Here: the buffers' contents when the region is entered, @main up to the region, each window's block
  read off its array, that an input window's staging buffer holds its block at every point whether
  fetched there or not, the branch condition decided over the grid, the staging memrefs the body is
  called with, and the frame claim's post read off a frame run's.
-/
import proofs.«171896_g25701084299798_cont_9to1_905_6_alg».proof.Proof.Gen.Kernel.Launch
import proofs.«171896_g25701084299798_cont_9to1_905_6_alg».proof.Proof.Gen.Kernel.Skeleton
import proofs.«171896_g25701084299798_cont_9to1_905_6_alg».proof.Proof.Gen.Kernel.Points
import Idealize.ShloMosaic.Lib.Pipeline.FrameBody
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The four arguments end as launched: the feature matrix, the adjacency matrix and the weight matrix are
    arrays of input windows, never written; the bias vector is staged by no window and bypasses the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c)⟩) h

/-! ## The body's branch -/

/-- The condition of the body's one branch, from the grid coordinate. -/
abbrev isFirst (i : grid0.Coords) : Prop := (Scalar.cmpi .ne (Scalar.extui (Scalar.cmpi .eq (BitVec.ofNat 32 (i 0).val) 0#32)) 0#32) = 1#1
/-- It holds at the first point and nowhere else. -/
theorem isFirst_iff : ∀ t : Fin cfg0.N, isFirst (grid0.coords t) ↔ t.val = 0 :=
  (by decide +kernel : ∀ t : Fin grid0.N, isFirst (grid0.coords t) ↔ t.val = 0)

/-- No window is ever idle. -/
theorem live_all : ∀ (w : Fin cfg0.W) (t : Fin cfg0.N), cfg0.idle w (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S10000x16 .f32 := Memref.whole cc0_scratch0
/-- One staging buffer of the output window, and the scratch, as views through which contents are stated. -/
abbrev VO : View sig .tc .vmem S400x16 .f32 := (Memref.whole cc0_stg5_0 : Memref sig .tc .vmem S400x16 .f32).view
abbrev VS : View sig .tc .vmem S10000x16 .f32 := scM.view

/-- The core's scoped buffers that are no staging buffer: the scratch, owned at some contents. -/
theorem scopedRest_eq_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Frame

end
-- ==== Proof.KRunFirst.lean ====
/-
  The kernel body at the FIRST grid point, run whole.  There the branch is taken: the body loads the
  feature and weight blocks, stores their product over the whole scratch buffer, then for each of the two
  adjacency slabs loads the slab, the scratch just written and the bias row, and stores the slab's 200
  result rows into its half of the output block.  The run is stated on any whole staging memrefs: the
  five inputs at given contents and handed back as they were, the output block and the scratch at
  anything and left with the stores' pieces written — the lists of pieces are what the run finds.
-/
import proofs.«171896_g25701084299798_cont_9to1_905_6_alg».proof.Proof.KBase

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: the pieces it leaves in the output block and in the scratch, with
    the proof that it runs to any continuation that accepts the buffers so written. -/
noncomputable def runFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i)
    (x0 : Vec F S10000x128 .f32) (x1 : Vec F S128x16 .f32) (x2 : Vec F S1x16 .f32) (x3 : Vec F S200x10000 .f32) (x4 : Vec F S200x10000 .f32) :
    Σ' (L5 : List (View.Piece (Elt F) S400x16 .f32)), { LS : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Frame

end
-- ==== Proof.KRunLater.lean ====
/-
  The kernel body at every grid point AFTER the first, run whole.  The branch is not taken: the body
  stores nothing into the scratch, which still holds what the first point left there; for each of the two
  adjacency slabs it loads the slab, the scratch and the bias row, and stores the slab's 200 result rows
  into its half of the output block.  Stated on any whole staging memrefs: the five inputs and the
  scratch at given contents and handed back as they were, the output block at anything and left with the
  stores' pieces written.
-/
import proofs.«171896_g25701084299798_cont_9to1_905_6_alg».proof.Proof.KRunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: the pieces it leaves in the output block, with the proof that it
    runs to any continuation that accepts the buffers so written, the scratch unchanged. -/
noncomputable def runLater (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i)
    (x0 : Vec F S10000x128 .f32) (x1 : Vec F S128x16 .f32) (x2 : Vec F S1x16 .f32) (x3 : Vec F S200x10000 .f32) (x4 : Vec F S200x10000 .f32) (xs : Vec F S10000x16 .f32) :
    { L5 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Frame

end
-- ==== Proof.KData.lean ====
/-
  The proof data of the graph-convolution kernel's one region, and its body obligation.

  What a run leaves in a buffer is its list of pieces read back; the pieces tile the buffer, so the
  reading does not depend on what the buffer held before.  After the first point the scratch holds the
  product of the feature and weight blocks (`sc`), and no later point stores into it: the region's
  invariant is the scratch at anything before the first point and at `sc` from then on.  The output
  block after point `t` (`outAt`) is what the first-point run leaves at `t = 0` and what the later-point
  run leaves, reading the scratch at `sc`, elsewhere.  The five input windows' buffers hold their blocks
  before and after the body.  The two windows on the adjacency matrix each hold half of its share.
-/
import proofs.«171896_g25701084299798_cont_9to1_905_6_alg».proof.Proof.KRunLater
import Idealize.ShloMosaic.Lib.Ring

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first-point run's pieces for the output block tile it: two stores of 200 rows. -/
theorem coverFirstOut (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (y : S400x16.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x16.size (by sl_kernel_rfl) y

/-- Its pieces for the scratch tile it: one store of the whole buffer. -/
theorem coverFirstSc (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (y : S10000x16.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x16.size (by sl_kernel_rfl) y

/-- The later-point run's pieces for the output block tile it. -/
theorem coverLaterOut (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) (y : S400x16.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x16.size (by sl_kernel_rfl) y

/-- What the first-point run leaves in the output block: its pieces read back. -/
def outFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) : Vec F S400x16 .f32 :=
  VO.read (Elt F) (VO.writes (Elt F) VO.junk (runFirst c i arg1 harg1 arg2 harg2 arg3 harg3 arg4 harg4 arg5 harg5 arg6 harg6 arg7 harg7 hc x0 x1 x2 x3 x4).1)

/-- What it leaves in the scratch. -/
def scFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) : Vec F S10000x16 .f32 :=
  VS.read (Elt F) (VS.writes (Elt F) VS.junk (runFirst c i arg1 harg1 arg2 harg2 arg3 harg3 arg4 harg4 arg5 harg5 arg6 harg6 arg7 harg7 hc x0 x1 x2 x3 x4).2.1)

/-- What the later-point run leaves in the output block. -/
def outLater (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) : Vec F S400x16 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by rw [show cfg0.N = 25 from N_0]; omega⟩

theorem first_t₀ : isFirst (grid0.coords t₀) := (isFirst_iff t₀).mpr rfl

/-- What the scratch holds once the first point has run, and ever after. -/
def sc (c : Dev nD) : Vec F S10000x16 .f32 :=
  scFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)

/-- What the output window's staging buffer holds after the body at point `t`. -/
def outAt (c : Dev nD) (t : Fin cfg0.N) : Vec F S400x16 .f32 :=
  if h : t.val = 0 then outFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (iblk m c 0 t) (iblk m c 1 t) (iblk m c 2 t) (iblk m c 3 t) (iblk m c 4 t)
  else outLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (iblk m c 0 t) (iblk m c 1 t) (iblk m c 2 t) (iblk m c 3 t) (iblk m c 4 t) (sc m c)

/-- The region's invariant before position `n`: the scratch at anything before the first point, at `sc` after it. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (sc m c)

theorem PhiS_pos (c : Dev nD) (n : ℕ) (hz : n ≠ 0) : PhiS m c n = owns (c : Thread nD τ) scM fullShare (sc m c) := by
  cases n with
  | zero => exact absurd rfl hz
  | succ n => rfl

/-! ## The proof data -/

/-- The arrays as the region finds them; after the body each input's buffer at its block and the output's at
    `outAt`; the invariant `PhiS`; nothing owed; the adjacency matrix's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks; at the first point the invariant hands over
    the scratch at anything and the first-point run leaves it at `sc`; at a later point it hands it over at `sc`
    and the later-point run hands it back untouched; either run leaves the output block at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live_all 0 t], after0]
  rw [show (dats m 0 c).leavesExact 1 t = owns (c : Thread nD τ) (ms1 t) fullShare ((dats m 0 c).after 1 t) from by
    unfold Dat.leavesExact; rw [live_all 1 t], after1]
  rw [show (dats m 0 c).leavesExact 2 t = owns (c : Thread nD τ) (ms2 t) fullShare ((dats m 0 c).after 2 t) from by
    unfold Dat.leavesExact; rw [live_all 2 t], after2]
  rw [show (dats m 0 c).leavesExact 3 t = owns (c : Thread nD τ) (ms3 t) fullShare ((dats m 0 c).after 3 t) from by
    unfold Dat.leavesExact; rw [live_all 3 t], after3]
  rw [show (dats m 0 c).leavesExact 4 t = owns (c : Thread nD τ) (ms4 t) fullShare ((dats m 0 c).after 4 t) from by
    unfold Dat.leavesExact; rw [live_all 4 t], after4]
  rw [show (dats m 0 c).leavesExact 5 t = owns (c : Thread nD τ) (ms5 t) fullShare ((dats m 0 c).after 5 t) from by
    unfold Dat.leavesExact; rw [live_all 5 t], after5]
  by_cases hz : t.val = 0
  · have ht : t = t₀ := Fin.ext hz
    subst ht
    rw [show PhiS m c (t₀ : Fin cfg0.N).val = Pipeline.scopedRest (Ix := Unit) (Name := ℕ) (U := UR sig nD τ) (Lvl := ℕ) (Val := Elt F) spec0 c from rfl,
      scopedRest_eq_scratch]
    rw [show outAt m c t₀ = outFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀) from dif_pos rfl]
    unfold outFirst sc scFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverFirstSc c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirstOut c _ _ _ _ _ _ _ _ _ _ _ _ _ _ _ _ _ _ _ _ _)
  · rw [PhiS_pos m c _ hz]
    rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hh => hz ((isFirst_iff t).mp hh)) (iblk m c 0 t) (iblk m c 1 t) (iblk m c 2 t) (iblk m c 3 t) (iblk m c 4 t) (sc m c) from dif_neg hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hh => hz ((isFirst_iff t).mp hh)) (iblk m c 0 t) (iblk m c 1 t) (iblk m c 2 t) (iblk m c 3 t) (iblk m c 4 t) (sc m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLaterOut c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_eq_scratch]
  iintro HS; iexists _; iexact HS

end Cert.Kernel.Frame

end
-- ==== Proof.LibSharedFrame.lean ====
/-
  A frame run for ONE kernel region on a static grid whose INPUT windows may stage the same array
  (one operand handed to the kernel through several `in_specs`), the kernel keeping something of its
  own in scratch between grid points.

  The proof data name what every window's staging buffer holds after the body at each point and an
  invariant `Φ` over the core's scoped buffers that are no staging buffer (the kernel's scratch).  In
  place of "every array held at the full share" the caller says how the DISTINCT buffers behind the
  arrays, each whole at the full share at the region-entry contents `V`, make the proof data's arrays
  (`hsplit`): an array read through several windows is divided among them, each window holding the
  share the data's `q` names.  The invariant is entered from the scoped rest at some contents (`hin`)
  and gives it back after the last point (`hout`).  The conclusion is the frame post: every window's
  array ends at what the write-backs leave (`Dat.arrAt … N`; an input array at its entry contents),
  and every unscoped buffer that is no window's array is as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a region whose input windows may share arrays, with an invariant over the
    kernel's scratch carried from point to point. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by iintro H; isplitr; · iempintro
                       iexact H)
    (hin := fun c => (show _ ⊢ (scopedRest (Ix := Unit) (Name := ℕ) (U := UR sig nD τ) (Lvl := ℕ) (Val := Val) (cfgs p).spec c : sProp 𝕄) from by
      iintro ⟨-, H⟩; iexact H).trans (hin c))
    (hout := fun c => (hout c).trans (by iintro H; isplitr; · iempintro
                                         iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KFrame.lean ====
/-
  The frame run of the graph-convolution program, and its frame.

  The launch hands the region five distinct array buffers, each whole at the full share: the feature
  matrix, the weight matrix, the bias row, the adjacency matrix and the output.  Six windows stage them;
  the adjacency matrix is read through two, so its share is divided: the window of the even slabs takes the
  left half and the window of the odd slabs the right half, both at the same contents.  With that, the
  body obligation and @main up to the region, the run follows: every weakly fair execution terminates with
  the output array at what the write-backs leave and everything else as the region found it; in
  particular the four arguments end as launched.
-/
import proofs.«171896_g25701084299798_cont_9to1_905_6_alg».proof.Proof.KData
import proofs.«171896_g25701084299798_cont_9to1_905_6_alg».proof.Proof.LibSharedFrame

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's array, held at the window's share at its entry contents, in plain form: the array is a whole
    buffer; the two windows on the adjacency matrix hold its left and its right half, every other window the
    full share. -/
theorem share0 (c : Dev nD) : (dats m 0 c).share 0 = fullShare := rfl
theorem entry0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_arg0) ↦{fullShare} V m c main_arg0) := by
  rw [(arr_whole0 0).set_eq_univ, share0]; rfl
theorem share1 (c : Dev nD) : (dats m 0 c).share 1 = fullShare := rfl
theorem entry1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_arg2) ↦{fullShare} V m c main_arg2) := by
  rw [(arr_whole0 1).set_eq_univ, share1]; rfl
theorem share2 (c : Dev nD) : (dats m 0 c).share 2 = fullShare := rfl
theorem entry2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_v0) ↦{fullShare} V m c main_v0) := by
  rw [(arr_whole0 2).set_eq_univ, share2]; rfl
theorem share3 (c : Dev nD) : (dats m 0 c).share 3 = fullShare.left := rfl
theorem entry3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_arg1) ↦{fullShare.left} V m c main_arg1) := by
  rw [(arr_whole0 3).set_eq_univ, share3]; rfl
theorem share4 (c : Dev nD) : (dats m 0 c).share 4 = fullShare.right := rfl
theorem entry4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_arg1) ↦{fullShare.right} V m c main_arg1) := by
  rw [(arr_whole0 4).set_eq_univ, share4]; rfl
theorem share5 (c : Dev nD) : (dats m 0 c).share 5 = fullShare := rfl
theorem entry5 (c : Dev nD) :
    ((cfg0.win 5).arr.view.loc (c.tc : Thread nD τ) ↦[(cfg0.win 5).arr.view.set]{(dats m 0 c).share 5} (dats m 0 c).arrAt 5 0 : sProp 𝕄)
      = (((c.tc : Thread nD τ).loc main_v1) ↦{fullShare} V m c main_v1) := by
  rw [(arr_whole0 5).set_eq_univ, share5]; rfl

/-- The five array buffers at the full share make the six windows' arrays: the adjacency matrix's full share
    is its left half and its right half. -/
theorem hsplit (c : Dev nD) :
    (Pipeline.arrBufs spec0 c (V m c) : sProp 𝕄) ⊢ (dats m 0 c).arrays ((dats m 0 c).arrAt · 0) := by
  classical
  have five : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_arg2) ↦{fullShare} V m c main_arg2) ∗ (((c.tc : Thread nD τ).loc main_v0) ↦{fullShare} V m c main_v0)
          ∗ (((c.tc : Thread nD τ).loc main_arg1) ↦{fullShare} V m c main_arg1) ∗ (((c.tc : Thread nD τ).loc main_v1) ↦{fullShare} V m c main_v1)) :=
    bigSep_eq_bigSepL_of_eq [main_arg0, main_arg2, main_v0, main_arg1, main_v1] (by decide) (by decide) _
  unfold Pipeline.arrBufs Dat.arrays
  rw [bigSep_W0, five]
  rw [entry0, entry1, entry2, entry3, entry4, entry5]
  iintro ⟨Hx, Hw, Hb, Hadj, Ho⟩
  ihave Hadj2 := (pointsTo_share (PosShare.mem_left_op_right fullShare)).1 $$ Hadj
  icases Hadj2 with ⟨Ha3, Ha4⟩
  isplitl [Hx]; · iexact Hx
  isplitl [Hw]; · iexact Hw
  isplitl [Hb]; · iexact Hb
  isplitl [Ha3]; · iexact Ha3
  isplitl [Ha4]; · iexact Ha4
  iexact Ho

set_option backward.isDefEq.respectTransparency.types false in
/-- From any memory with zero counters every weakly fair execution of @main terminates, the output array at what
    the library computes from the proof data and every buffer no window stages as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- The frame: the program runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.KiBase.lean ====
/-
  What the runs of the graph-convolution kernel's body and its frame share.

  The program's @main reshapes the bias vector to a row and then enters one kernel region on a grid of
  25 points.  Six windows: the feature matrix, the weight matrix and the bias row, each one block that
  never moves; two windows on the SAME adjacency matrix, the even and the odd slab of 200 rows of the
  point's 400; and the output, 400 rows per point.  The kernel keeps the product features × weights in
  a scratch buffer: it computes it at the first point (the one branch of the body, taken exactly
  there) and reads it at every point.

  Here: the buffers' contents when the region is entered, @main up to the region, each window's block
  read off its array, that an input window's staging buffer holds its block at every point whether
  fetched there or not, the branch condition decided over the grid, the staging memrefs the body is
  called with, and the frame claim's post read off a frame run's.
-/
import proofs.«171896_g25701084299798_cont_9to1_905_6_alg».proof.Proof.Gen.KernelIdeal.Launch
import proofs.«171896_g25701084299798_cont_9to1_905_6_alg».proof.Proof.Gen.KernelIdeal.Skeleton
import proofs.«171896_g25701084299798_cont_9to1_905_6_alg».proof.Proof.Gen.KernelIdeal.Points
import Idealize.ShloMosaic.Lib.Pipeline.FrameBody
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it
    is not fetched the block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The four arguments end as launched: the feature matrix, the adjacency matrix and the weight matrix are
    arrays of input windows, never written; the bias vector is staged by no window and bypasses the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c)⟩) h

/-! ## The body's branch -/

/-- The condition of the body's one branch, from the grid coordinate. -/
abbrev isFirst (i : grid0.Coords) : Prop := (Scalar.cmpi .ne (Scalar.extui (Scalar.cmpi .eq (BitVec.ofNat 32 (i 0).val) 0#32)) 0#32) = 1#1
/-- It holds at the first point and nowhere else. -/
theorem isFirst_iff : ∀ t : Fin cfg0.N, isFirst (grid0.coords t) ↔ t.val = 0 :=
  (by decide +kernel : ∀ t : Fin grid0.N, isFirst (grid0.coords t) ↔ t.val = 0)

/-- No window is ever idle. -/
theorem live_all : ∀ (w : Fin cfg0.W) (t : Fin cfg0.N), cfg0.idle w (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
/-- The scratch operand: a whole scoped buffer of the kernel's own. -/
abbrev scM : Memref sig .tc .vmem S10000x16 .f32 := Memref.whole cc0_scratch0
/-- One staging buffer of the output window, and the scratch, as views through which contents are stated. -/
abbrev VO : View sig .tc .vmem S400x16 .f32 := (Memref.whole cc0_stg5_0 : Memref sig .tc .vmem S400x16 .f32).view
abbrev VS : View sig .tc .vmem S10000x16 .f32 := scM.view

/-- The core's scoped buffers that are no staging buffer: the scratch, owned at some contents. -/
theorem scopedRest_eq_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Frame

end
-- ==== Proof.KiRunFirst.lean ====
/-
  The kernel body at the FIRST grid point, run whole.  There the branch is taken: the body loads the
  feature and weight blocks, stores their product over the whole scratch buffer, then for each of the two
  adjacency slabs loads the slab, the scratch just written and the bias row, and stores the slab's 200
  result rows into its half of the output block.  The run is stated on any whole staging memrefs: the
  five inputs at given contents and handed back as they were, the output block and the scratch at
  anything and left with the stores' pieces written — the lists of pieces are what the run finds.
-/
import proofs.«171896_g25701084299798_cont_9to1_905_6_alg».proof.Proof.KiBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: the pieces it leaves in the output block and in the scratch, with
    the proof that it runs to any continuation that accepts the buffers so written. -/
noncomputable def runFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i)
    (x0 : Vec F S10000x128 .f32) (x1 : Vec F S128x16 .f32) (x2 : Vec F S1x16 .f32) (x3 : Vec F S200x10000 .f32) (x4 : Vec F S200x10000 .f32) :
    Σ' (L5 : List (View.Piece (Elt F) S400x16 .f32)), { LS : List (View.Piece (Elt F) S10000x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Frame

end
-- ==== Proof.KiRunLater.lean ====
/-
  The kernel body at every grid point AFTER the first, run whole.  The branch is not taken: the body
  stores nothing into the scratch, which still holds what the first point left there; for each of the two
  adjacency slabs it loads the slab, the scratch and the bias row, and stores the slab's 200 result rows
  into its half of the output block.  Stated on any whole staging memrefs: the five inputs and the
  scratch at given contents and handed back as they were, the output block at anything and left with the
  stores' pieces written.
-/
import proofs.«171896_g25701084299798_cont_9to1_905_6_alg».proof.Proof.KiRunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: the pieces it leaves in the output block, with the proof that it
    runs to any continuation that accepts the buffers so written, the scratch unchanged. -/
noncomputable def runLater (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i)
    (x0 : Vec F S10000x128 .f32) (x1 : Vec F S128x16 .f32) (x2 : Vec F S1x16 .f32) (x3 : Vec F S200x10000 .f32) (x4 : Vec F S200x10000 .f32) (xs : Vec F S10000x16 .f32) :
    { L5 : List (View.Piece (Elt F) S400x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Frame

end
-- ==== Proof.KiData.lean ====
/-
  The proof data of the graph-convolution kernel's one region, and its body obligation.

  What a run leaves in a buffer is its list of pieces read back; the pieces tile the buffer, so the
  reading does not depend on what the buffer held before.  After the first point the scratch holds the
  product of the feature and weight blocks (`sc`), and no later point stores into it: the region's
  invariant is the scratch at anything before the first point and at `sc` from then on.  The output
  block after point `t` (`outAt`) is what the first-point run leaves at `t = 0` and what the later-point
  run leaves, reading the scratch at `sc`, elsewhere.  The five input windows' buffers hold their blocks
  before and after the body.  The two windows on the adjacency matrix each hold half of its share.
-/
import proofs.«171896_g25701084299798_cont_9to1_905_6_alg».proof.Proof.KiRunLater
import Idealize.ShloMosaic.Lib.Ring

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the runs leave -/

/-- The first-point run's pieces for the output block tile it: two stores of 200 rows. -/
theorem coverFirstOut (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (y : S400x16.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x16.size (by sl_kernel_rfl) y

/-- Its pieces for the scratch tile it: one store of the whole buffer. -/
theorem coverFirstSc (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (y : S10000x16.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x16.size (by sl_kernel_rfl) y

/-- The later-point run's pieces for the output block tile it. -/
theorem coverLaterOut (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) (y : S400x16.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x16.size (by sl_kernel_rfl) y

/-- What the first-point run leaves in the output block: its pieces read back. -/
def outFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) : Vec F S400x16 .f32 :=
  VO.read (Elt F) (VO.writes (Elt F) VO.junk (runFirst c i arg1 harg1 arg2 harg2 arg3 harg3 arg4 harg4 arg5 harg5 arg6 harg6 arg7 harg7 hc x0 x1 x2 x3 x4).1)

/-- What it leaves in the scratch. -/
def scFirst (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) : Vec F S10000x16 .f32 :=
  VS.read (Elt F) (VS.writes (Elt F) VS.junk (runFirst c i arg1 harg1 arg2 harg2 arg3 harg3 arg4 harg4 arg5 harg5 arg6 harg6 arg7 harg7 hc x0 x1 x2 x3 x4).2.1)

/-- What the later-point run leaves in the output block. -/
def outLater (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) : Vec F S400x16 .f32 :=
  VO.read (Elt F) (VO.writes (Elt F) VO.junk (runLater c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by rw [show cfg0.N = 25 from N_0]; omega⟩

theorem first_t₀ : isFirst (grid0.coords t₀) := (isFirst_iff t₀).mpr rfl

/-- What the scratch holds once the first point has run, and ever after. -/
def sc (c : Dev nD) : Vec F S10000x16 .f32 :=
  scFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)

/-- What the output window's staging buffer holds after the body at point `t`. -/
def outAt (c : Dev nD) (t : Fin cfg0.N) : Vec F S400x16 .f32 :=
  if h : t.val = 0 then outFirst c (grid0.coords t) (ms0 t) (hs0 t) (ms1 t) (hs1 t) (ms2 t) (hs2 t) (ms3 t) (hs3 t) (ms4 t) (hs4 t) (ms5 t) (hs5 t) scM (Memref.isWhole_whole _) ((isFirst_iff t).mpr h) (iblk m c 0 t) (iblk m c 1 t) (iblk m c 2 t) (iblk m c 3 t) (iblk m c 4 t)
  else outLater c (grid0.coords t) (ms0 t) (hs0 t) (ms1 t) (hs1 t) (ms2 t) (hs2 t) (ms3 t) (hs3 t) (ms4 t) (hs4 t) (ms5 t) (hs5 t) scM (Memref.isWhole_whole _) (fun hh => h ((isFirst_iff t).mp hh)) (iblk m c 0 t) (iblk m c 1 t) (iblk m c 2 t) (iblk m c 3 t) (iblk m c 4 t) (sc m c)

/-- The region's invariant before position `n`: the scratch at anything before the first point, at `sc` after it. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (sc m c)

theorem PhiS_pos (c : Dev nD) (n : ℕ) (hz : n ≠ 0) : PhiS m c n = owns (c : Thread nD τ) scM fullShare (sc m c) := by
  cases n with
  | zero => exact absurd rfl hz
  | succ n => rfl

/-! ## The proof data -/

/-- The arrays as the region finds them; after the body each input's buffer at its block and the output's at
    `outAt`; the invariant `PhiS`; nothing owed; the adjacency matrix's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks; at the first point the invariant hands over
    the scratch at anything and the first-point run leaves it at `sc`; at a later point it hands it over at `sc`
    and the later-point run hands it back untouched; either run leaves the output block at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from by dsimp only [dats]; simp only [Fin.coe_castSucc]]
  rw [show (dats m 0 c).leavesExact 0 t = owns (c : Thread nD τ) (ms0 t) fullShare ((dats m 0 c).after 0 t) from by
    unfold Dat.leavesExact; rw [live_all 0 t], after0]
  rw [show (dats m 0 c).leavesExact 1 t = owns (c : Thread nD τ) (ms1 t) fullShare ((dats m 0 c).after 1 t) from by
    unfold Dat.leavesExact; rw [live_all 1 t], after1]
  rw [show (dats m 0 c).leavesExact 2 t = owns (c : Thread nD τ) (ms2 t) fullShare ((dats m 0 c).after 2 t) from by
    unfold Dat.leavesExact; rw [live_all 2 t], after2]
  rw [show (dats m 0 c).leavesExact 3 t = owns (c : Thread nD τ) (ms3 t) fullShare ((dats m 0 c).after 3 t) from by
    unfold Dat.leavesExact; rw [live_all 3 t], after3]
  rw [show (dats m 0 c).leavesExact 4 t = owns (c : Thread nD τ) (ms4 t) fullShare ((dats m 0 c).after 4 t) from by
    unfold Dat.leavesExact; rw [live_all 4 t], after4]
  rw [show (dats m 0 c).leavesExact 5 t = owns (c : Thread nD τ) (ms5 t) fullShare ((dats m 0 c).after 5 t) from by
    unfold Dat.leavesExact; rw [live_all 5 t], after5]
  by_cases hz : t.val = 0
  · have ht : t = t₀ := Fin.ext hz
    subst ht
    rw [show PhiS m c (t₀ : Fin cfg0.N).val = Pipeline.scopedRest (Ix := Unit) (Name := ℕ) (U := UR sig nD τ) (Lvl := ℕ) (Val := Elt F) spec0 c from rfl,
      scopedRest_eq_scratch]
    rw [show outAt m c t₀ = outFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀) from dif_pos rfl]
    unfold outFirst sc scFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) first_t₀ (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (coverFirstSc c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirstOut c _ _ _ _ _ _ _ _ _ _ _ _ _ _ _ _ _ _ _ _ _)
  · rw [PhiS_pos m c _ hz]
    rw [show outAt m c t = outLater c (grid0.coords t) (ms0 t) (hs0 t) (ms1 t) (hs1 t) (ms2 t) (hs2 t) (ms3 t) (hs3 t) (ms4 t) (hs4 t) (ms5 t) (hs5 t) scM (Memref.isWhole_whole _) (fun hh => hz ((isFirst_iff t).mp hh)) (iblk m c 0 t) (iblk m c 1 t) (iblk m c 2 t) (iblk m c 3 t) (iblk m c 4 t) (sc m c) from dif_neg hz]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) (ms0 t) (hs0 t) (ms1 t) (hs1 t) (ms2 t) (hs2 t) (ms3 t) (hs3 t) (ms4 t) (hs4 t) (ms5 t) (hs5 t) scM (Memref.isWhole_whole _) (fun hh => hz ((isFirst_iff t).mp hh)) (iblk m c 0 t) (iblk m c 1 t) (iblk m c 2 t) (iblk m c 3 t) (iblk m c 4 t) (sc m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLaterOut c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

/-- After the last point the invariant gives the scratch back, its contents forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_eq_scratch]
  iintro HS; iexists _; iexact HS

end Cert.KernelIdeal.Frame

end
-- ==== Proof.KiFrame.lean ====
/-
  The frame run of the graph-convolution program, and its frame.

  The launch hands the region five distinct array buffers, each whole at the full share: the feature
  matrix, the weight matrix, the bias row, the adjacency matrix and the output.  Six windows stage them;
  the adjacency matrix is read through two, so its share is divided: the window of the even slabs takes the
  left half and the window of the odd slabs the right half, both at the same contents.  With that, the
  body obligation and @main up to the region, the run follows: every weakly fair execution terminates with
  the output array at what the write-backs leave and everything else as the region found it; in
  particular the four arguments end as launched.
-/
import proofs.«171896_g25701084299798_cont_9to1_905_6_alg».proof.Proof.KiData
import proofs.«171896_g25701084299798_cont_9to1_905_6_alg».proof.Proof.LibSharedFrame

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's array, held at the window's share at its entry contents, in plain form: the array is a whole
    buffer; the two windows on the adjacency matrix hold its left and its right half, every other window the
    full share. -/
theorem share0 (c : Dev nD) : (dats m 0 c).share 0 = fullShare := rfl
theorem entry0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_arg0) ↦{fullShare} V m c main_arg0) := by
  rw [(arr_whole0 0).set_eq_univ, share0]; rfl
theorem share1 (c : Dev nD) : (dats m 0 c).share 1 = fullShare := rfl
theorem entry1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_arg2) ↦{fullShare} V m c main_arg2) := by
  rw [(arr_whole0 1).set_eq_univ, share1]; rfl
theorem share2 (c : Dev nD) : (dats m 0 c).share 2 = fullShare := rfl
theorem entry2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_v0) ↦{fullShare} V m c main_v0) := by
  rw [(arr_whole0 2).set_eq_univ, share2]; rfl
theorem share3 (c : Dev nD) : (dats m 0 c).share 3 = fullShare.left := rfl
theorem entry3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_arg1) ↦{fullShare.left} V m c main_arg1) := by
  rw [(arr_whole0 3).set_eq_univ, share3]; rfl
theorem share4 (c : Dev nD) : (dats m 0 c).share 4 = fullShare.right := rfl
theorem entry4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_arg1) ↦{fullShare.right} V m c main_arg1) := by
  rw [(arr_whole0 4).set_eq_univ, share4]; rfl
theorem share5 (c : Dev nD) : (dats m 0 c).share 5 = fullShare := rfl
theorem entry5 (c : Dev nD) :
    ((cfg0.win 5).arr.view.loc (c.tc : Thread nD τ) ↦[(cfg0.win 5).arr.view.set]{(dats m 0 c).share 5} (dats m 0 c).arrAt 5 0 : sProp 𝕄)
      = (((c.tc : Thread nD τ).loc main_v1) ↦{fullShare} V m c main_v1) := by
  rw [(arr_whole0 5).set_eq_univ, share5]; rfl

/-- The five array buffers at the full share make the six windows' arrays: the adjacency matrix's full share
    is its left half and its right half. -/
theorem hsplit (c : Dev nD) :
    (Pipeline.arrBufs spec0 c (V m c) : sProp 𝕄) ⊢ (dats m 0 c).arrays ((dats m 0 c).arrAt · 0) := by
  classical
  have five : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_arg2) ↦{fullShare} V m c main_arg2) ∗ (((c.tc : Thread nD τ).loc main_v0) ↦{fullShare} V m c main_v0)
          ∗ (((c.tc : Thread nD τ).loc main_arg1) ↦{fullShare} V m c main_arg1) ∗ (((c.tc : Thread nD τ).loc main_v1) ↦{fullShare} V m c main_v1)) :=
    bigSep_eq_bigSepL_of_eq [main_arg0, main_arg2, main_v0, main_arg1, main_v1] (by decide) (by decide) _
  unfold Pipeline.arrBufs Dat.arrays
  rw [bigSep_W0, five]
  rw [entry0, entry1, entry2, entry3, entry4, entry5]
  iintro ⟨Hx, Hw, Hb, Hadj, Ho⟩
  ihave Hadj2 := (pointsTo_share (PosShare.mem_left_op_right fullShare)).1 $$ Hadj
  icases Hadj2 with ⟨Ha3, Ha4⟩
  isplitl [Hx]; · iexact Hx
  isplitl [Hw]; · iexact Hw
  isplitl [Hb]; · iexact Hb
  isplitl [Ha3]; · iexact Ha3
  isplitl [Ha4]; · iexact Ha4
  iexact Ho

set_option backward.isDefEq.respectTransparency.types false in
/-- From any memory with zero counters every weakly fair execution of @main terminates, the output array at what
    the library computes from the proof data and every buffer no window stages as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- The frame: the program runs to the end, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.KiPieces.lean ====
/-
  What the body's runs leave, as the payload terms of the blocks they loaded.

  The scratch after the first point is the product term of the feature and weight blocks.  The output block
  is written in two row bands: rows 0 to 199 hold the first slab's term and rows 200 to 399 the second
  slab's, each a function of its adjacency slab, the scratch's contents and the bias row.  At the first
  point the scratch the two bands read is the product just stored; at a later point it is what the
  scratch held.  So at every point `t` the bands of `outAt` are the two terms over the point's slabs,
  `sc` and the bias row.
-/
import proofs.«171896_g25701084299798_cont_9to1_905_6_alg».proof.Proof.KiData
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Rows 0 to 199 of the output block, and rows 200 to 399. -/
abbrev lowRows : Rect S400x16 := Rect.unit (s := S400x16) ![0, 0] S200x16.size Facts₀.inb_S400x16_S200x16_0_0
abbrev highRows : Rect S400x16 := Rect.unit (s := S400x16) ![200, 0] S200x16.size Facts₀.inb_S400x16_S200x16_200_0

/-- A row of the lower band is no row of the upper band. -/
theorem low_not_high (x : lowRows.shape.Idx) : lowRows.emb x ∉ highRows.set := by
  rw [Rect.mem_set_unit]
  intro h
  have h0 := (h 0).1
  have hx : (x 0).val < 200 := (x 0).isLt
  simp only [Rect.emb_apply, Rect.off_unit, Rect.stride_unit, Nat.one_mul, Matrix.cons_val_zero] at h0
  omega

/-- A buffer written first in its lower band and then in its upper band reads, at a row of the lower band, what
    the first store put there; and at a row of the upper band what the second store put there. -/
theorem canon_bands_low (w2 : highRows.shape.Idx → Elt F .f32) (w1 : lowRows.shape.Idx → Elt F .f32) (x : lowRows.shape.Idx) :
    View.canon [(⟨highRows, w2⟩ : View.Piece (Elt F) S400x16 .f32), (⟨lowRows, w1⟩ : View.Piece (Elt F) S400x16 .f32)] (lowRows.emb x) = w1 x := by
  rw [View.canon_cons_of_not_mem (⟨highRows, w2⟩ : View.Piece (Elt F) S400x16 .f32) [(⟨lowRows, w1⟩ : View.Piece (Elt F) S400x16 .f32)] (low_not_high x)]
  exact View.canon_cons_emb lowRows w1 [] x

theorem canon_bands_high (w2 : highRows.shape.Idx → Elt F .f32) (w1 : lowRows.shape.Idx → Elt F .f32) (x : highRows.shape.Idx) :
    View.canon [(⟨highRows, w2⟩ : View.Piece (Elt F) S400x16 .f32), (⟨lowRows, w1⟩ : View.Piece (Elt F) S400x16 .f32)] (highRows.emb x) = w2 x :=
  View.canon_cons_emb highRows w2 [(⟨lowRows, w1⟩ : View.Piece (Elt F) S400x16 .f32)] x

/-! ## The first point -/

/-- The first point leaves the product term of the two blocks in the scratch. -/
theorem scFirst_eq (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) :
    scFirst c i arg1 harg1 arg2 harg2 arg3 harg3 arg4 harg4 arg5 harg5 arg6 harg6 arg7 harg7 hc x0 x1 x2 x3 x4 = k0_pay1 x0 x1 := by
  unfold scFirst
  rw [View.read_writes_eq_canon _ _ _ (coverFirstSc c i arg1 harg1 arg2 harg2 arg3 harg3 arg4 harg4 arg5 harg5 arg6 harg6 arg7 harg7 hc x0 x1 x2 x3 x4)]
  unfold runFirst
  dsimp only
  try sl_unfold_words
  rw [View.canon_unit_zero hz]
  simp only [View.readAt_eq_ld, harg1.read_unread, harg2.read_unread, harg3.read_unread, harg4.read_unread, harg5.read_unread,
    View.ld_unit_zero (S := S10000x128) hz, View.ld_unit_zero (S := S128x16) hz, View.ld_unit_zero (S := S1x16) hz,
    View.ld_unit_zero (S := S200x10000) hz, View.ld_unit_zero (S := S10000x16) hz]

/-- Its upper band: the second slab's term, over the product just stored. -/
theorem outFirst_high (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (x : highRows.shape.Idx) :
    outFirst c i arg1 harg1 arg2 harg2 arg3 harg3 arg4 harg4 arg5 harg5 arg6 harg6 arg7 harg7 hc x0 x1 x2 x3 x4 (highRows.emb x) = k0_pay3 x4 (k0_pay1 x0 x1) x2 x := by
  unfold outFirst
  rw [View.read_writes_eq_canon _ _ _ (coverFirstOut c i arg1 harg1 arg2 harg2 arg3 harg3 arg4 harg4 arg5 harg5 arg6 harg6 arg7 harg7 hc x0 x1 x2 x3 x4)]
  unfold runFirst
  dsimp only
  try sl_unfold_words
  refine (canon_bands_high _ _ x).trans ?_
  simp only [View.readAt_eq_ld, harg1.read_unread, harg2.read_unread, harg3.read_unread, harg4.read_unread, harg5.read_unread,
    View.ld_unit_zero (S := S10000x128) hz, View.ld_unit_zero (S := S128x16) hz, View.ld_unit_zero (S := S1x16) hz,
    View.ld_unit_zero (S := S200x10000) hz, View.ld_unit_zero (S := S10000x16) hz, View.readCov_unit_zero (S := S10000x16) _ hz]

/-- Its lower band: the first slab's term, over the product just stored. -/
theorem outFirst_low (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : isFirst i) (x0 : Vec F S10000x128 .f32) (x1 : Vec F S128x16 .f32) (x2 : Vec F S1x16 .f32) (x3 : Vec F S200x10000 .f32) (x4 : Vec F S200x10000 .f32) (x : lowRows.shape.Idx) :
    outFirst c i arg1 harg1 arg2 harg2 arg3 harg3 arg4 harg4 arg5 harg5 arg6 harg6 arg7 harg7 hc x0 x1 x2 x3 x4 (lowRows.emb x) = k0_pay2 x3 (k0_pay1 x0 x1) x2 x := by
  unfold outFirst
  rw [View.read_writes_eq_canon _ _ _ (coverFirstOut c i arg1 harg1 arg2 harg2 arg3 harg3 arg4 harg4 arg5 harg5 arg6 harg6 arg7 harg7 hc x0 x1 x2 x3 x4)]
  unfold runFirst
  dsimp only
  try sl_unfold_words
  refine (canon_bands_low _ _ x).trans ?_
  simp only [View.readAt_eq_ld, harg1.read_unread, harg2.read_unread, harg3.read_unread, harg4.read_unread, harg5.read_unread,
    View.ld_unit_zero (S := S10000x128) hz, View.ld_unit_zero (S := S128x16) hz, View.ld_unit_zero (S := S1x16) hz,
    View.ld_unit_zero (S := S200x10000) hz, View.ld_unit_zero (S := S10000x16) hz, View.readCov_unit_zero (S := S10000x16) _ hz]

/-! ## A later point -/

theorem outLater_high (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) (x : highRows.shape.Idx) :
    outLater c i arg1 harg1 arg2 harg2 arg3 harg3 arg4 harg4 arg5 harg5 arg6 harg6 arg7 harg7 hc x0 x1 x2 x3 x4 xs (highRows.emb x) = k0_pay3 x4 xs x2 x := by
  unfold outLater
  rw [View.read_writes_eq_canon _ _ _ (coverLaterOut c i arg1 harg1 arg2 harg2 arg3 harg3 arg4 harg4 arg5 harg5 arg6 harg6 arg7 harg7 hc x0 x1 x2 x3 x4 xs)]
  unfold runLater
  dsimp only
  try sl_unfold_words
  refine (canon_bands_high _ _ x).trans ?_
  simp only [View.readAt_eq_ld, harg1.read_unread, harg2.read_unread, harg3.read_unread, harg4.read_unread, harg5.read_unread,
    View.ld_unit_zero (S := S10000x128) hz, View.ld_unit_zero (S := S128x16) hz, View.ld_unit_zero (S := S1x16) hz,
    View.ld_unit_zero (S := S200x10000) hz, View.ld_unit_zero (S := S10000x16) hz, harg7.read_unread]

theorem outLater_low (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x16 .f32) (harg6 : arg6.IsWhole) (arg7 : Memref sig .tc .vmem S10000x16 .f32) (harg7 : arg7.IsWhole) (hc : ¬isFirst i) (x0 : Vec F S10000x128 .f32) (x1 : Vec F S128x16 .f32) (x2 : Vec F S1x16 .f32) (x3 : Vec F S200x10000 .f32) (x4 : Vec F S200x10000 .f32) (xs : Vec F S10000x16 .f32) (x : lowRows.shape.Idx) :
    outLater c i arg1 harg1 arg2 harg2 arg3 harg3 arg4 harg4 arg5 harg5 arg6 harg6 arg7 harg7 hc x0 x1 x2 x3 x4 xs (lowRows.emb x) = k0_pay2 x3 xs x2 x := by
  unfold outLater
  rw [View.read_writes_eq_canon _ _ _ (coverLaterOut c i arg1 harg1 arg2 harg2 arg3 harg3 arg4 harg4 arg5 harg5 arg6 harg6 arg7 harg7 hc x0 x1 x2 x3 x4 xs)]
  unfold runLater
  dsimp only
  try sl_unfold_words
  refine (canon_bands_low _ _ x).trans ?_
  simp only [View.readAt_eq_ld, harg1.read_unread, harg2.read_unread, harg3.read_unread, harg4.read_unread, harg5.read_unread,
    View.ld_unit_zero (S := S10000x128) hz, View.ld_unit_zero (S := S128x16) hz, View.ld_unit_zero (S := S1x16) hz,
    View.ld_unit_zero (S := S200x10000) hz, View.ld_unit_zero (S := S10000x16) hz, harg7.read_unread]

/-! ## Every point -/

/-- The scratch from the first point on: the product term of the feature and weight blocks. -/
theorem sc_eq (c : Dev nD) : sc m c = k0_pay1 (iblk m c 0 t₀) (iblk m c 1 t₀) := by
  unfold sc
  exact scFirst_eq c _ _ _ _ _ _ _ _ _ _ _ _ _ _ _ _ _ _ _ _ _

/-- The upper band of the output block after point `t`. -/
theorem outAt_high (c : Dev nD) (t : Fin cfg0.N) (x : highRows.shape.Idx) :
    outAt m c t (highRows.emb x) = k0_pay3 (iblk m c 4 t) (sc m c) (iblk m c 2 t) x := by
  unfold outAt
  by_cases h : t.val = 0
  · rw [dif_pos h]
    have ht : t = t₀ := Fin.ext h
    subst ht
    rw [outFirst_high, sc_eq]
  · rw [dif_neg h, outLater_high]

/-- The lower band of the output block after point `t`. -/
theorem outAt_low (c : Dev nD) (t : Fin cfg0.N) (x : lowRows.shape.Idx) :
    outAt m c t (lowRows.emb x) = k0_pay2 (iblk m c 3 t) (sc m c) (iblk m c 2 t) x := by
  unfold outAt
  by_cases h : t.val = 0
  · rw [dif_pos h]
    have ht : t = t₀ := Fin.ext h
    subst ht
    rw [outFirst_low, sc_eq]
  · rw [dif_neg h, outLater_low]

end Cert.KernelIdeal.Frame

end
-- ==== Proof.KiBlocks.lean ====
/-
  The six windows' blocks as entries of the arrays the region finds.

  The feature matrix, the weight matrix and the bias row are each ONE block that is the whole array: the
  block's entry `j` is the array's entry `j`. The bias row itself is the bias vector read back through the
  reshape `[16] → [1, 16]` that @main does before the region. The two windows on the adjacency matrix take,
  at point `t`, the block rows `2t` and `2t + 1` of 200 rows each: rows `400 t + p` and `400 t + 200 + p`
  of the matrix, every column. The output window's block at point `t` is rows `400 t … 400 t + 399` of the
  output, and since `25 · 400 = 10000` every output row lies in the block of the point `row / 400`, which
  is written back like every point's.
-/
import proofs.«171896_g25701084299798_cont_9to1_905_6_alg».proof.Proof.KiBase
import Idealize.ShloMosaic.Lib.Pipeline.Value
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices over the grid -/

/-- The six index maps at point `t`: the three one-block windows stay at block `(0, 0)`; the adjacency windows
    are at block rows `2t` and `2t + 1`; the output window at block row `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 2 * t.val ∧ win0_3.index t (1 : Fin 2) = 0
    ∧ win0_4.index t (0 : Fin 2) = 2 * t.val + 1 ∧ win0_4.index t (1 : Fin 2) = 0
    ∧ win0_5.index t (0 : Fin 2) = t.val ∧ win0_5.index t (1 : Fin 2) = 0 :=
  (by decide +kernel : ∀ t : Fin grid0.N, _)

/-! ## The one-block windows -/

/-- The feature matrix's block is the matrix. -/
theorem iblk0_apply (c : Dev nD) (t : Fin cfg0.N) (j : S10000x128.Idx) :
    (iblk m c 0 t : Vec F S10000x128 .f32) j = (m ((c : Thread nD τ).loc main_arg0) : S10000x128.Idx → Elt F .f32) j := by
  have e0 : win0_0.index t (0 : Fin 2) = 0 := (idx_facts t).1
  have e1 : win0_0.index t (1 : Fin 2) = 0 := (idx_facts t).2.1
  unfold iblk
  rw [View.read_apply]
  show V m c main_arg0 _ = _
  rw [V_main_arg0 m c]
  refine congrArg _ (funext fun a => Fin.ext ?_)
  match a with
  | ⟨0, _⟩ => show win0_0.index t 0 * 10000 + 1 * (j 0).val = (j 0).val; rw [e0]; omega
  | ⟨1, _⟩ => show win0_0.index t 1 * 128 + 1 * (j 1).val = (j 1).val; rw [e1]; omega

/-- The weight matrix's block is the matrix. -/
theorem iblk1_apply (c : Dev nD) (t : Fin cfg0.N) (j : S128x16.Idx) :
    (iblk m c 1 t : Vec F S128x16 .f32) j = (m ((c : Thread nD τ).loc main_arg2) : S128x16.Idx → Elt F .f32) j := by
  have e0 : win0_1.index t (0 : Fin 2) = 0 := (idx_facts t).2.2.1
  have e1 : win0_1.index t (1 : Fin 2) = 0 := (idx_facts t).2.2.2.1
  unfold iblk
  rw [View.read_apply]
  show V m c main_arg2 _ = _
  rw [V_main_arg2 m c]
  refine congrArg _ (funext fun a => Fin.ext ?_)
  match a with
  | ⟨0, _⟩ => show win0_1.index t 0 * 128 + 1 * (j 0).val = (j 0).val; rw [e0]; omega
  | ⟨1, _⟩ => show win0_1.index t 1 * 16 + 1 * (j 1).val = (j 1).val; rw [e1]; omega

/-- The bias row the region finds is the bias vector laid out as one row. -/
theorem V_main_v0 (c : Dev nD) :
    (V m c main_v0 : S1x16.Idx → Elt F .f32)
      = shapeCast S1x16 (m ((c : Thread nD τ).loc main_arg3) : S16.Idx → Elt F .f32) Facts₀.shapeCasts_S16_S1x16 := by
  dsimp only [V, hostOps0]
  after_results
  rfl

/-- The bias row's block is the row. -/
theorem iblk2_apply (c : Dev nD) (t : Fin cfg0.N) (j : S1x16.Idx) :
    (iblk m c 2 t : Vec F S1x16 .f32) j = (V m c main_v0 : S1x16.Idx → Elt F .f32) j := by
  have e0 : win0_2.index t (0 : Fin 2) = 0 := (idx_facts t).2.2.2.2.1
  have e1 : win0_2.index t (1 : Fin 2) = 0 := (idx_facts t).2.2.2.2.2.1
  unfold iblk
  rw [View.read_apply]
  show V m c main_v0 _ = _
  refine congrArg _ (funext fun a => Fin.ext ?_)
  match a with
  | ⟨0, _⟩ => show win0_2.index t 0 * 1 + 1 * (j 0).val = (j 0).val; rw [e0]; omega
  | ⟨1, _⟩ => show win0_2.index t 1 * 16 + 1 * (j 1).val = (j 1).val; rw [e1]; omega

/-! ## The two slabs of the adjacency matrix -/

/-- The even slab at point `t`: row `p` of the block is row `400 t + p` of the matrix. -/
theorem iblk3_apply (c : Dev nD) (t : Fin cfg0.N) (j : S200x10000.Idx) (k : S10000x10000.Idx)
    (hk0 : (k 0).val = 400 * t.val + (j 0).val) (hk1 : (k 1).val = (j 1).val) :
    (iblk m c 3 t : Vec F S200x10000 .f32) j = (m ((c : Thread nD τ).loc main_arg1) : S10000x10000.Idx → Elt F .f32) k := by
  have e0 := (idx_facts t).2.2.2.2.2.2.1
  have e1 := (idx_facts t).2.2.2.2.2.2.2.1
  unfold iblk
  rw [View.read_apply]
  show V m c main_arg1 _ = _
  rw [V_main_arg1 m c]
  refine congrArg _ (funext fun a => Fin.ext ?_)
  match a with
  | ⟨0, _⟩ => show win0_3.index t 0 * 200 + 1 * (j 0).val = (k 0).val; rw [e0, hk0]; omega
  | ⟨1, _⟩ => show win0_3.index t 1 * 10000 + 1 * (j 1).val = (k 1).val; rw [e1, hk1]; omega

/-- The odd slab at point `t`: row `p` of the block is row `400 t + 200 + p` of the matrix. -/
theorem iblk4_apply (c : Dev nD) (t : Fin cfg0.N) (j : S200x10000.Idx) (k : S10000x10000.Idx)
    (hk0 : (k 0).val = 400 * t.val + 200 + (j 0).val) (hk1 : (k 1).val = (j 1).val) :
    (iblk m c 4 t : Vec F S200x10000 .f32) j = (m ((c : Thread nD τ).loc main_arg1) : S10000x10000.Idx → Elt F .f32) k := by
  have e0 := (idx_facts t).2.2.2.2.2.2.2.2.1
  have e1 := (idx_facts t).2.2.2.2.2.2.2.2.2.1
  unfold iblk
  rw [View.read_apply]
  show V m c main_arg1 _ = _
  rw [V_main_arg1 m c]
  refine congrArg _ (funext fun a => Fin.ext ?_)
  match a with
  | ⟨0, _⟩ => show win0_4.index t 0 * 200 + 1 * (j 0).val = (k 0).val; rw [e0, hk0]; omega
  | ⟨1, _⟩ => show win0_4.index t 1 * 10000 + 1 * (j 1).val = (k 1).val; rw [e1, hk1]; omega

/-! ## The output window -/

/-- Entry `y` of the output block at point `t` is entry `(400 t + y₀, y₁)` of the output. -/
theorem out_emb (t : Fin cfg0.N) (y : S400x16.Idx) :
    ((((cfg0.win 5).blk t).view.emb y) (0 : Fin 2)).val = 400 * t.val + (y 0).val
      ∧ ((((cfg0.win 5).blk t).view.emb y) (1 : Fin 2)).val = (y 1).val := by
  have e0 := (idx_facts t).2.2.2.2.2.2.2.2.2.2.1
  have e1 := (idx_facts t).2.2.2.2.2.2.2.2.2.2.2
  constructor
  · show win0_5.index t 0 * 400 + 1 * (y 0).val = _; rw [e0]; omega
  · show win0_5.index t 1 * 16 + 1 * (y 1).val = _; rw [e1]; omega

/-- Every entry of the output is in the block of the point `row / 400`, and every point writes its block back. -/
theorem out_cover (i : S10000x16.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 16 := (i 1).isLt
  let t : Fin cfg0.N := ⟨(i 0).val / 400, by omega⟩
  have e0 : win0_5.index t (0 : Fin 2) = (i 0).val / 400 := (idx_facts t).2.2.2.2.2.2.2.2.2.2.1
  have e1 : win0_5.index t (1 : Fin 2) = 0 := (idx_facts t).2.2.2.2.2.2.2.2.2.2.2
  refine ⟨t, flush0_5 t, ?_⟩
  show i ∈ ((View.whole main_v1).slice (win0_5.rect t)).set
  rw [View.set_slice_whole, Rect.mem_set_unit]
  intro a
  match a with
  | ⟨0, _⟩ =>
    show win0_5.index t (0 : Fin 2) * 400 ≤ (i 0).val ∧ (i 0).val < win0_5.index t (0 : Fin 2) * 400 + 400
    rw [e0]; omega
  | ⟨1, _⟩ =>
    show win0_5.index t (1 : Fin 2) * 16 ≤ (i 1).val ∧ (i 1).val < win0_5.index t (1 : Fin 2) * 16 + 16
    rw [e1]; omega

end Cert.KernelIdeal.Frame

end
-- ==== Proof.PayIsSpec.lean ====
/- The kernel body's three pure terms read at an entry, over the extended reals.

   `k0_pay1` is the feature product `x @ W`: its entry `(r, q)` is the sum over the 128 features `f` of
   `x[r, f] * W[f, q]`. `k0_pay2` and `k0_pay3` are one slab of 200 rows of the layer: the entry `(p, q)` is
   the sum over the 10000 nodes `k` of `a[p, k] * s[k, q]`, plus the bias entry `b[0, q]`, and then the
   maximum with `0`. Over the extended reals a matrix product into a zero accumulator is the plain sum of
   products (the zero word is the real number zero), a row `[1, 16]` broadcast to `[200, 16]` repeats its one row,
   a shape cast of a shape to itself does nothing, and the float maximum is the order's maximum.

   The last lemma reads the bias as the host hands it to the kernel: the vector `[16]` cast to the row `[1, 16]`
   has at `(0, q)` the vector's entry `q`. -/
import proofs.«171896_g25701084299798_cont_9to1_905_6_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayValue

open Cert.KernelIdeal Idealize.ShloMosaic Idealize.SL.Sem Idealize.ShloMosaic.ValueIdx

/-! ## The contraction's index maps, axis by axis

For a product `[A, K] x [K, B] -> [A, B]` contracting the left operand's axis 1 with the right operand's
axis 0, the left index at output `(p, q)` and contraction coordinate `k` is `(p, k)` and the right one is `(k, q)`. -/

/-! ### The feature product `[10000, 128] x [128, 16]` -/

theorem lhs_xw_0 (i : S10000x16.Idx) (c : dot_S10000x128_S128x16_S10000x16_1_0_0_1_n_n.contr.Idx) :
    (dot_S10000x128_S128x16_S10000x16_1_0_0_1_n_n.lhsIdx i c 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_xw_1 (i : S10000x16.Idx) (c : dot_S10000x128_S128x16_S10000x16_1_0_0_1_n_n.contr.Idx) :
    (dot_S10000x128_S128x16_S10000x16_1_0_0_1_n_n.lhsIdx i c 1).val = (c ⟨0, by decide⟩).val :=
  dot_S10000x128_S128x16_S10000x16_1_0_0_1_n_n.lhsIdx_val_of_single rfl i c
theorem rhs_xw_0 (i : S10000x16.Idx) (c : dot_S10000x128_S128x16_S10000x16_1_0_0_1_n_n.contr.Idx) :
    (dot_S10000x128_S128x16_S10000x16_1_0_0_1_n_n.rhsIdx i c 0).val = (c ⟨0, by decide⟩).val :=
  dot_S10000x128_S128x16_S10000x16_1_0_0_1_n_n.rhsIdx_val_of_single rfl i c
theorem rhs_xw_1 (i : S10000x16.Idx) (c : dot_S10000x128_S128x16_S10000x16_1_0_0_1_n_n.contr.Idx) :
    (dot_S10000x128_S128x16_S10000x16_1_0_0_1_n_n.rhsIdx i c 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-! ### The slab product `[200, 10000] x [10000, 16]` -/

theorem lhs_slab_0 (i : S200x16.Idx) (c : dot_S200x10000_S10000x16_S200x16_1_0_0_1_n_n.contr.Idx) :
    (dot_S200x10000_S10000x16_S200x16_1_0_0_1_n_n.lhsIdx i c 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem lhs_slab_1 (i : S200x16.Idx) (c : dot_S200x10000_S10000x16_S200x16_1_0_0_1_n_n.contr.Idx) :
    (dot_S200x10000_S10000x16_S200x16_1_0_0_1_n_n.lhsIdx i c 1).val = (c ⟨0, by decide⟩).val :=
  dot_S200x10000_S10000x16_S200x16_1_0_0_1_n_n.lhsIdx_val_of_single rfl i c
theorem rhs_slab_0 (i : S200x16.Idx) (c : dot_S200x10000_S10000x16_S200x16_1_0_0_1_n_n.contr.Idx) :
    (dot_S200x10000_S10000x16_S200x16_1_0_0_1_n_n.rhsIdx i c 0).val = (c ⟨0, by decide⟩).val :=
  dot_S200x10000_S10000x16_S200x16_1_0_0_1_n_n.rhsIdx_val_of_single rfl i c
theorem rhs_slab_1 (i : S200x16.Idx) (c : dot_S200x10000_S10000x16_S200x16_1_0_0_1_n_n.contr.Idx) :
    (dot_S200x10000_S10000x16_S200x16_1_0_0_1_n_n.rhsIdx i c 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-! ## The two matrix products into a zero accumulator, as sums -/

/-- The feature product at `(p, q)` is the sum over the features `k` of `l[p, k] * m[k, q]`. -/
theorem matmul_xw_apply (l : FVec Ideal S10000x128 .f32) (m : FVec Ideal S128x16 .f32) (p : Fin 10000) (q : Fin 16) :
    FloatOps.matmul dot_S10000x128_S128x16_S10000x16_1_0_0_1_n_n none l m (constant (F := Ideal) S10000x16 .f32 0x00000000#32) (ix2 p q)
      = ∑ k : Fin 128, l (ix2 p k) * m (ix2 k q) := by
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-- The slab product at `(p, q)` is the sum over the nodes `k` of `l[p, k] * m[k, q]`. -/
theorem matmul_slab_apply (l : FVec Ideal S200x10000 .f32) (m : FVec Ideal S10000x16 .f32) (p : Fin 200) (q : Fin 16) :
    FloatOps.matmul dot_S200x10000_S10000x16_S200x16_1_0_0_1_n_n none l m (constant (F := Ideal) S200x16 .f32 0x00000000#32) (ix2 p q)
      = ∑ k : Fin 10000, l (ix2 p k) * m (ix2 k q) := by
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p q) ((contrEquiv1 dot_S200x10000_S10000x16_S200x16_1_0_0_1_n_n 10000 rfl rfl).symm k) = ix2 p k := funext fun a => Fin.ext (by
    match a with
    | ⟨0, _⟩ => exact lhs_slab_0 _ _
    | ⟨1, _⟩ => exact (lhs_slab_1 _ _).trans hk)
  have er : dot_S200x10000_S10000x16_S200x16_1_0_0_1_n_n.rhsIdx (ix2 p q) ((contrEquiv1 dot_S200x10000_S10000x16_S200x16_1_0_0_1_n_n 10000 rfl rfl).symm k) = ix2 k q := funext fun a => Fin.ext (by
    match a with
    | ⟨0, _⟩ => exact (rhs_slab_0 _ _).trans hk
    | ⟨1, _⟩ => exact rhs_slab_1 _ _)
  rw [el, er]

/-! ## The payloads at an entry -/

/-- The scratch contents `x @ W` at `(r, q)`: the sum over the features. -/
theorem pay1_apply (x : Vec Ideal S10000x128 .f32) (w : Vec Ideal S128x16 .f32) (r : Fin 10000) (q : Fin 16) :
    Gen.k0_pay1 (F := Ideal) x w (ix2 r q) = ∑ f : Fin 128, x (ix2 r f) * w (ix2 f q) := by
  unfold Gen.k0_pay1
  rw [shapeCast_self]
  exact matmul_xw_apply x w r q

/-- One slab of the layer at an entry: the row of `adj` against the column of `S`, plus the bias entry of
    that column, clipped below at zero. -/
theorem pay2_apply (a : Vec Ideal S200x10000 .f32) (s : Vec Ideal S10000x16 .f32) (b1 : Vec Ideal S1x16 .f32) (p : Fin 200) (q : Fin 16) :
    Gen.k0_pay2 (F := Ideal) a s b1 (ix2 p q) = max ((∑ k : Fin 10000, a (ix2 p k) * s (ix2 k q)) + b1 (ix2 0 q)) 0 := by
  unfold Gen.k0_pay2
  rw [maximumf_apply, addf_apply, broadcast_apply, shapeCast_self]
  refine congrArg₂ max (congrArg₂ (· + ·) (matmul_slab_apply a s p q) ?_) Ideal.ofBits_zero_f32
  exact broadcastTo_1b_ab_apply b1 _ p q

/-- One slab of the layer at an entry: the row of `adj` against the column of `S`, plus the bias entry of
    that column, clipped below at zero. -/
theorem pay3_apply (a : Vec Ideal S200x10000 .f32) (s : Vec Ideal S10000x16 .f32) (b1 : Vec Ideal S1x16 .f32) (p : Fin 200) (q : Fin 16) :
    Gen.k0_pay3 (F := Ideal) a s b1 (ix2 p q) = max ((∑ k : Fin 10000, a (ix2 p k) * s (ix2 k q)) + b1 (ix2 0 q)) 0 := by
  unfold Gen.k0_pay3
  rw [maximumf_apply, addf_apply, broadcast_apply, shapeCast_self]
  refine congrArg₂ max (congrArg₂ (· + ·) (matmul_slab_apply a s p q) ?_) Ideal.ofBits_zero_f32
  exact broadcastTo_1b_ab_apply b1 _ p q

/-! ## The bias as a row -/

/-- The vector `[16]` cast to `[1, 16]`, whatever the proof that the cast is one, read at `(0, q)`. -/
theorem bias_row_of (b : FVec Ideal S16 .f32) (h : S16.ShapeCasts S1x16) (q : Fin 16) :
    shapeCast S1x16 b h (ix2 (0 : Fin 1) q) = b (ix1 q) :=
  shapeCast_a_1a_apply b h 0 q

/-- The same at the proof the host's reshape carries. -/
theorem bias_row (b : FVec Ideal S16 .f32) (q : Fin 16) :
    (shapeCast S1x16 b Facts₀.shapeCasts_S16_S1x16) (ix2 0 q) = b (ix1 q) :=
  bias_row_of b _ q

end Cert.KernelIdeal.PayValue

end
-- ==== Proof.Spec.lean ====
/-
  The graph-convolution layer as ONE function of its four argument arrays, index by index, over the
  extended reals.

  For node features `x` (10000 × 128), a dense adjacency `adj` (10000 × 10000), weights `w` (128 × 16)
  and a bias row `b` (16):

    support x w [r, q]       = Σ_f x[r, f] · w[f, q]
    layer x adj w b [r, q]   = max ((Σ_k adj[r, k] · support x w [k, q]) + b[q]) 0

  that is, relu (adj · (x · w) + b).  Every sum is the extended reals' own finite sum in the index
  order of `Finset.univ`; nothing here asks for finiteness.  The two `_apply` lemmas read each
  function at an index built from literal coordinates.
-/
import Idealize.ShloMosaic.PureOps.Ideal
import Idealize.ShloMosaic.Lib.ValueIdx

noncomputable section

open scoped BigOperators

namespace Cert.Gcn

open Idealize.ShloMosaic Idealize.ShloMosaic.ValueIdx

/-- The support matrix `x · w`: at row `r` and column `q`, the sum over the 128 features `f` of
    `x[r, f] · w[f, q]`. -/
def support (x : (⟨2, ![10000, 128]⟩ : Shape).Idx → EReal) (w : (⟨2, ![128, 16]⟩ : Shape).Idx → EReal) :
    (⟨2, ![10000, 16]⟩ : Shape).Idx → EReal :=
  fun i => ∑ f : Fin 128, x (ix2 (n0 := 10000) (n1 := 128) (i 0) f) * w (ix2 (n0 := 128) (n1 := 16) f (i 1))

/-- The support matrix read at literal coordinates. -/
theorem support_apply (x : (⟨2, ![10000, 128]⟩ : Shape).Idx → EReal) (w : (⟨2, ![128, 16]⟩ : Shape).Idx → EReal)
    (r : Fin 10000) (q : Fin 16) :
    support x w (ix2 r q) = ∑ f : Fin 128, x (ix2 r f) * w (ix2 f q) := rfl

/-- The layer `relu (adj · (x · w) + b)`: at row `r` and column `q`, the sum over the 10000 nodes `k` of
    `adj[r, k] · support x w [k, q]`, plus the bias `b[q]`, cut below at zero. -/
def layer (x : (⟨2, ![10000, 128]⟩ : Shape).Idx → EReal) (adj : (⟨2, ![10000, 10000]⟩ : Shape).Idx → EReal)
    (w : (⟨2, ![128, 16]⟩ : Shape).Idx → EReal) (b : (⟨1, ![16]⟩ : Shape).Idx → EReal) :
    (⟨2, ![10000, 16]⟩ : Shape).Idx → EReal :=
  fun i => max ((∑ k : Fin 10000, adj (ix2 (n0 := 10000) (n1 := 10000) (i 0) k)
      * support x w (ix2 (n0 := 10000) (n1 := 16) k (i 1))) + b (ix1 (n := 16) (i 1))) 0

/-- The layer read at literal coordinates. -/
theorem layer_apply (x : (⟨2, ![10000, 128]⟩ : Shape).Idx → EReal) (adj : (⟨2, ![10000, 10000]⟩ : Shape).Idx → EReal)
    (w : (⟨2, ![128, 16]⟩ : Shape).Idx → EReal) (b : (⟨1, ![16]⟩ : Shape).Idx → EReal)
    (r : Fin 10000) (q : Fin 16) :
    layer x adj w b (ix2 r q)
      = max ((∑ k : Fin 10000, adj (ix2 r k) * support x w (ix2 k q)) + b (ix1 q)) 0 := rfl

end Cert.Gcn

end
-- ==== Proof.KiValue.lean ====
/-
  The idealized kernel's value: over the extended reals the output array ends holding the
  graph-convolution layer of the four arguments as launched.

  The scratch holds, from the first point on, the support matrix features × weights: its payload is a sum of
  products over the 128 features, and the two blocks it reads are the whole argument arrays.  At point `t`
  the lower band of the output block, row `p`, is the first slab's payload: the sum over the 10000 nodes
  `k` of adj[400 t + p, k] times the support at `k`, plus the bias, cut below at zero; the upper band the
  same over adj[400 t + 200 + p, k].  The output block's row `p` (or `200 + p`) sits at row `400 t + p`
  (or `400 t + 200 + p`) of the output array, so each written-back block is a block of the layer; the 25
  blocks cover the array.
-/
import proofs.«171896_g25701084299798_cont_9to1_905_6_alg».proof.Proof.KiFrame
import proofs.«171896_g25701084299798_cont_9to1_905_6_alg».proof.Proof.KiPieces
import proofs.«171896_g25701084299798_cont_9to1_905_6_alg».proof.Proof.KiBlocks
import proofs.«171896_g25701084299798_cont_9to1_905_6_alg».proof.Proof.PayIsSpec
import proofs.«171896_g25701084299798_cont_9to1_905_6_alg».proof.Proof.Spec
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Cert.KernelIdeal.PayValue Idealize.ShloMosaic.ValueIdx
open scoped BigOperators

/-- The layer of the arguments as launched: what the output array ends holding. -/
abbrev result (c : Dev nD) : Buf (Elt Ideal) ((c : Thread nD τ).loc main_v1) :=
  Cert.Gcn.layer (m ((c : Thread nD τ).loc main_arg0)) (m ((c : Thread nD τ).loc main_arg1))
    (m ((c : Thread nD τ).loc main_arg2)) (m ((c : Thread nD τ).loc main_arg3))

/-- The scratch from the first point on is the support matrix. -/
theorem sc_apply (c : Dev nD) (k : Fin 10000) (q : Fin 16) :
    (sc m c : Vec Ideal S10000x16 .f32) (ix2 k q)
      = Cert.Gcn.support (m ((c : Thread nD τ).loc main_arg0)) (m ((c : Thread nD τ).loc main_arg2)) (ix2 k q) := by
  rw [sc_eq]
  refine (pay1_apply (iblk m c 0 t₀) (iblk m c 1 t₀) k q).trans ?_
  rw [Cert.Gcn.support_apply]
  refine Finset.sum_congr rfl fun f _ => ?_
  rw [iblk0_apply, iblk1_apply]

/-- The bias row the body reads is the bias vector. -/
theorem bias_apply (c : Dev nD) (t : Fin cfg0.N) (q : Fin 16) :
    (iblk m c 2 t : Vec Ideal S1x16 .f32) (ix2 0 q) = (m ((c : Thread nD τ).loc main_arg3) : S16.Idx → Elt Ideal .f32) (ix1 q) := by
  rw [iblk2_apply, V_main_v0]
  exact bias_row _ q

/-- One slab's payload over the point's blocks is the layer at the slab's row of the array. -/
theorem slab_apply (c : Dev nD) (t : Fin cfg0.N) (a : Vec Ideal S200x10000 .f32) (p : Fin 200) (q : Fin 16) (r : Fin 10000)
    (ha : ∀ k : Fin 10000, a (ix2 p k) = (m ((c : Thread nD τ).loc main_arg1) : S10000x10000.Idx → Elt Ideal .f32) (ix2 r k)) :
    max ((∑ k : Fin 10000, a (ix2 p k) * (sc m c : Vec Ideal S10000x16 .f32) (ix2 k q)) + (iblk m c 2 t : Vec Ideal S1x16 .f32) (ix2 0 q)) 0
      = result m c (ix2 r q) := by
  refine Eq.trans ?_ (Cert.Gcn.layer_apply _ _ _ _ r q).symm
  rw [bias_apply]
  congr 2
  refine Finset.sum_congr rfl fun k _ => ?_
  rw [ha k, sc_apply]

/-- The lower band of the output block after point `t`, row `p`: the layer at row `400 t + p`. -/
theorem outAt_low_apply (c : Dev nD) (t : Fin cfg0.N) (p : Fin 200) (q : Fin 16) (r : Fin 10000) (hr : r.val = 400 * t.val + p.val) :
    (outAt m c t : Vec Ideal S400x16 .f32) (lowRows.emb (ix2 p q)) = result m c (ix2 r q) := by
  rw [outAt_low]
  refine (pay2_apply (iblk m c 3 t) (sc m c) (iblk m c 2 t) p q).trans ?_
  exact slab_apply m c t (iblk m c 3 t) p q r fun k => iblk3_apply m c t _ _ (by show r.val = 400 * t.val + p.val; exact hr) rfl

/-- The upper band, row `p`: the layer at row `400 t + 200 + p`. -/
theorem outAt_high_apply (c : Dev nD) (t : Fin cfg0.N) (p : Fin 200) (q : Fin 16) (r : Fin 10000) (hr : r.val = 400 * t.val + 200 + p.val) :
    (outAt m c t : Vec Ideal S400x16 .f32) (highRows.emb (ix2 p q)) = result m c (ix2 r q) := by
  rw [outAt_high]
  refine (pay3_apply (iblk m c 4 t) (sc m c) (iblk m c 2 t) p q).trans ?_
  exact slab_apply m c t (iblk m c 4 t) p q r fun k => iblk4_apply m c t _ _ (by show r.val = 400 * t.val + 200 + p.val; exact hr) rfl

/-- What the output block holds after point `t` is block `t` of the layer. -/
theorem outAt_apply (c : Dev nD) (t : Fin cfg0.N) (y : S400x16.Idx) :
    (outAt m c t : Vec Ideal S400x16 .f32) y = result m c (((cfg0.win 5).blk t).view.emb y) := by
  obtain ⟨e0, e1⟩ := out_emb t y
  have hy0 : (y 0).val < 400 := (y 0).isLt
  have hy1 : (y 1).val < 16 := (y 1).isLt
  have hN : t.val < 25 := lt_of_lt_of_eq t.isLt (show cfg0.N = 25 from N_0)
  have hi : ((cfg0.win 5).blk t).view.emb y = ix2 (⟨400 * t.val + (y 0).val, by omega⟩ : Fin 10000) (⟨(y 1).val, hy1⟩ : Fin 16) := by
    funext a; apply Fin.ext
    match a with
    | ⟨0, _⟩ => exact e0
    | ⟨1, _⟩ => exact e1
  rw [hi]
  by_cases hlow : (y 0).val < 200
  · have hy : y = lowRows.emb (ix2 (⟨(y 0).val, hlow⟩ : Fin 200) (⟨(y 1).val, hy1⟩ : Fin 16)) := by
      funext a; apply Fin.ext
      match a with
      | ⟨0, _⟩ => simp only [Rect.emb_apply, Rect.off_unit, Rect.stride_unit, Nat.one_mul]; show (y 0).val = 0 + (y 0).val; omega
      | ⟨1, _⟩ => simp only [Rect.emb_apply, Rect.off_unit, Rect.stride_unit, Nat.one_mul]; show (y 1).val = 0 + (y 1).val; omega
    conv_lhs => rw [hy]
    exact outAt_low_apply m c t _ _ _ rfl
  · have hy : y = highRows.emb (ix2 (⟨(y 0).val - 200, by omega⟩ : Fin 200) (⟨(y 1).val, hy1⟩ : Fin 16)) := by
      funext a; apply Fin.ext
      match a with
      | ⟨0, _⟩ => simp only [Rect.emb_apply, Rect.off_unit, Rect.stride_unit, Nat.one_mul]; show (y 0).val = 200 + ((y 0).val - 200); omega
      | ⟨1, _⟩ => simp only [Rect.emb_apply, Rect.off_unit, Rect.stride_unit, Nat.one_mul]; show (y 1).val = 0 + (y 1).val; omega
    conv_lhs => rw [hy]
    exact outAt_high_apply m c t _ _ _ (by show 400 * t.val + (y 0).val = 400 * t.val + 200 + ((y 0).val - 200); omega)

/-- What point `t` writes back is block `t` of the layer. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after5]
  funext y
  rw [View.read_apply]
  exact outAt_apply m c t y

/-- The output array after the run is the layer. -/
theorem final (c : Dev nD) : (dats m 0 c).arrAt 5 cfg0.N = result m c :=
  (dats m 0 c).arrAt_eq_of_cover 5 (result m c) (fun t _ => flushed_eq m c t) out_cover

/-- The run, read: the output array at the layer of the arguments, the arguments unchanged. -/
theorem run_value : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main (F := Ideal) m ρ)

end Cert.KernelIdeal.Frame

end
-- ==== Proof.RefIsSpec.lean ====
/-
  The reference program's result is the specification's layer.

  The reference computes relu (relu (adj · (x · w) + b)) with two matrix products, a bias row broadcast
  over the rows, and two maxima with a zero array.  Read at the index [r, q] (extended reals):

    max (max ((Σ_k adj[r, k] · (Σ_f x[k, f] · w[f, q])) + b[q]) 0) 0

  and max (max v 0) 0 = max v (max 0 0) = max v 0, which is the layer at [r, q].  The only other
  content is that the operand indices the products and broadcasts read at are the literal coordinates
  [r, k], [k, q], [k, f], [f, q] and [q].
-/
import proofs.«171896_g25701084299798_cont_9to1_905_6_alg».proof.Proof.Gen.ReferenceIdeal.Run
import proofs.«171896_g25701084299798_cont_9to1_905_6_alg».proof.Proof.Gen.ReferenceIdeal.Read
import proofs.«171896_g25701084299798_cont_9to1_905_6_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The operand indices at literal coordinates -/

/-- The outer product reads its left operand, at result [r, q] and contraction index k, at [r, k]. -/
theorem lidx_v1_ix (r : Fin 10000) (q : Fin 16) (k : Fin 10000) :
    lidx_main_v1 (ix2 r q) k = ix2 r k :=
  funext fun a => Fin.ext (by match a with | ⟨0, _⟩ => rfl | ⟨1, _⟩ => rfl)

/-- … and its right operand at [k, q]. -/
theorem ridx_v1_ix (r : Fin 10000) (q : Fin 16) (k : Fin 10000) :
    ridx_main_v1 (ix2 r q) k = ix2 k q :=
  funext fun a => Fin.ext (by match a with | ⟨0, _⟩ => rfl | ⟨1, _⟩ => rfl)

/-- The inner product reads its left operand, at result [k, q] and contraction index f, at [k, f]. -/
theorem lidx_v0_ix (k : Fin 10000) (q : Fin 16) (f : Fin 128) :
    lidx_main_v0 (ix2 k q) f = ix2 k f :=
  funext fun a => Fin.ext (by match a with | ⟨0, _⟩ => rfl | ⟨1, _⟩ => rfl)

/-- … and its right operand at [f, q]. -/
theorem ridx_v0_ix (k : Fin 10000) (q : Fin 16) (f : Fin 128) :
    ridx_main_v0 (ix2 k q) f = ix2 f q :=
  funext fun a => Fin.ext (by match a with | ⟨0, _⟩ => rfl | ⟨1, _⟩ => rfl)

/-- The bias, broadcast first to one row and then over all rows, is read at [q]. -/
theorem bias_ix (r : Fin 10000) (q : Fin 16) :
    idx_main_v2 (idx_main_v3 (ix2 r q)) = ix1 q :=
  funext fun a => Fin.ext (by match a with | ⟨0, _⟩ => rfl)

/-! ## The stages at literal coordinates -/

/-- The inner product x · w at [k, q] is the specification's support matrix there. -/
theorem val_main_v0_at (X : (⟨S10000x128, .f32⟩ : BufTy).Contents (Elt Ideal)) (W : (⟨S128x16, .f32⟩ : BufTy).Contents (Elt Ideal))
    (k : Fin 10000) (q : Fin 16) :
    val_main_v0 (F := Ideal) X W (ix2 k q) = Cert.Gcn.support X W (ix2 k q) := by
  rw [val_main_v0_apply, Cert.Gcn.support_apply]
  refine Finset.sum_congr rfl fun f _ => ?_
  rw [lidx_v0_ix, ridx_v0_ix]

/-- The whole reference at [r, q] is the layer there: the second maximum with zero changes nothing. -/
theorem val_main_v6_at (X : (⟨S10000x128, .f32⟩ : BufTy).Contents (Elt Ideal)) (ADJ : (⟨S10000x10000, .f32⟩ : BufTy).Contents (Elt Ideal))
    (W : (⟨S128x16, .f32⟩ : BufTy).Contents (Elt Ideal)) (B : (⟨S16, .f32⟩ : BufTy).Contents (Elt Ideal))
    (r : Fin 10000) (q : Fin 16) :
    val_main_v6 (F := Ideal) X ADJ W B (ix2 r q) = Cert.Gcn.layer X ADJ W B (ix2 r q) := by
  rw [Cert.Gcn.layer_apply, val_main_v6_apply, val_main_v5_apply, val_main_v4_apply, val_main_v1_apply,
    val_main_v3_apply, val_main_v2_apply, val_main_call1_v0_apply, val_main_call1_cst_apply,
    val_main_call0_v0_apply, val_main_call0_cst_apply, bias_ix]
  simp only [Ideal.maximumf_def, Ideal.addf_def, Ideal.ofBits_def, Ideal.ofBits_zero_f32]
  rw [max_assoc, max_self]
  have hs : ∀ k : Fin 10000,
      ADJ (lidx_main_v1 (ix2 r q) k) * val_main_v0 (F := Ideal) X W (ridx_main_v1 (ix2 r q) k)
        = ADJ (ix2 r k) * Cert.Gcn.support X W (ix2 k q) := fun k => by
    rw [lidx_v1_ix, ridx_v1_ix, val_main_v0_at]
  rw [Finset.sum_congr rfl fun k _ => hs k]

/-- The term the reference's run leaves in its result buffer is the specification's layer of the four arguments. -/
theorem ref_is_layer (X : (⟨S10000x128, .f32⟩ : BufTy).Contents (Elt Ideal)) (ADJ : (⟨S10000x10000, .f32⟩ : BufTy).Contents (Elt Ideal))
    (W : (⟨S128x16, .f32⟩ : BufTy).Contents (Elt Ideal)) (B : (⟨S16, .f32⟩ : BufTy).Contents (Elt Ideal)) :
    maximumf (maximumf (addf (Host.dotGeneral (φ₁ := .f32) (φ₂ := .f32) dot_S10000x10000_S10000x16_S10000x16_1_0_0_1_n_n none (ADJ) (Host.dotGeneral (φ₁ := .f32) (φ₂ := .f32) dot_S10000x128_S128x16_S10000x16_1_0_0_1_n_n none (X) (W))) (broadcastInDim S10000x16 ![0, 1] bcast_S1x16_S10000x16_0_1 (broadcastInDim S1x16 ![1] bcast_S16_S1x16_1 (B)))) (broadcastInDim S10000x16 ![] bcast_S_S10000x16 (constant (F := Ideal) S_ .f32 0x00000000#32))) (broadcastInDim S10000x16 ![] bcast_S_S10000x16 (constant (F := Ideal) S_ .f32 0x00000000#32))
      = Cert.Gcn.layer X ADJ W B := by
  refine (val_main_v6_eq (F := Ideal) X ADJ W B).trans ?_
  funext i
  rw [eq_ix2 i]
  exact val_main_v6_at X ADJ W B (i 0) (i 1)

end Cert.ReferenceIdeal.RefValue

end
-- ==== Proof.lean ====
/-
  A graph-convolution layer, relu (adj · (x · W) + b) for x : f32[10000, 128], adj : f32[10000, 10000],
  W : f32[128, 16], b : f32[16], as one fused kernel against its plain array reference.

  The kernel runs on a grid of 25 points.  At the first point it forms the support matrix x · W in a scratch
  buffer, which every point then reads; at each point it multiplies two adjacent slabs of 200 rows of adj —
  staged through two windows on the one adjacency matrix — by the support, adds the bias row, cuts below at
  zero, and writes the 400 result rows back.  The reference computes the same sums of products with the
  same grouping and applies the cut at zero twice.

  Frames: each program runs to the end from any memory with zero counters, faults nowhere, and leaves its
  four arguments as launched.  For the kernel (word-level and idealized alike: the proof does not look at
  the float instance) the region is launched with the adjacency matrix's share divided between its two
  windows, the scratch tracked from the first point on, and the arguments read back unchanged: three as
  arrays of input windows, the bias vector as a buffer the region never touches.  The reference is a
  straight line of array operations.

  The idealization changes nothing the ledger records, so the second claim is trivial.

  Equality over the extended reals: the kernel's output array ends holding, at row r and column q,
  max ((Σ_k adj[r, k] · (Σ_f x[k, f] · W[f, q])) + b[q]) 0, block by block over the 25 points, and the
  reference's result is that same function, a cut at zero applied twice being the cut applied once.  No
  finiteness of the inputs is used.
-/
import proofs.«171896_g25701084299798_cont_9to1_905_6_alg».proof.Defs
import proofs.«171896_g25701084299798_cont_9to1_905_6_alg».proof.Proof.Gen.Kernel
import proofs.«171896_g25701084299798_cont_9to1_905_6_alg».proof.Proof.Gen.KernelIdeal
import proofs.«171896_g25701084299798_cont_9to1_905_6_alg».proof.Proof.Gen.ReferenceIdeal
import proofs.«171896_g25701084299798_cont_9to1_905_6_alg».proof.Proof.Gen.Pre_finite_inputs
import proofs.«171896_g25701084299798_cont_9to1_905_6_alg».proof.Proof.Gen.ReferenceIdeal.Run
import proofs.«171896_g25701084299798_cont_9to1_905_6_alg».proof.Proof.KFrame
import proofs.«171896_g25701084299798_cont_9to1_905_6_alg».proof.Proof.KiFrame
import proofs.«171896_g25701084299798_cont_9to1_905_6_alg».proof.Proof.KiValue
import proofs.«171896_g25701084299798_cont_9to1_905_6_alg».proof.Proof.RefIsSpec
import Idealize.ShloMosaic.Adequacy
import Idealize.ShloMosaic.Init

noncomputable section

namespace Cert.Proof

open Idealize.ShloMosaic Idealize.SL.Sem

/-- The word-level kernel's frame. -/
theorem frame_kernel : Cert.frame_Kernel := fun m ρ _ => Cert.Kernel.Frame.frame (F := Bits) m ρ

/-- The idealized kernel's frame. -/
theorem frame_kernelIdeal : Cert.frame_KernelIdeal := fun m ρ _ => Cert.KernelIdeal.Frame.frame (F := Ideal) m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both programs end at the layer of the arguments: the kernel's output array by its value run, the reference's
    result by its run read as the same function, the two memories agreeing on the arguments. -/
theorem algebraic : Cert.algebraic_KernelIdeal_ReferenceIdeal := by
  intro m ρ m' ρ' _ hagree
  refine ⟨fun c => Cert.KernelIdeal.Frame.result m c, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.ref_is_layer _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
